-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x1024 : Shape := ⟨3, ![32, 512, 1024]⟩
abbrev S1024x1024 : Shape := ⟨2, ![1024, 1024]⟩
abbrev S1024 : Shape := ⟨1, ![1024]⟩
abbrev S1024x3072 : Shape := ⟨2, ![1024, 3072]⟩
abbrev S2x3072 : Shape := ⟨2, ![2, 3072]⟩
abbrev S_ : Shape := ⟨0, ![]⟩

class Facts : Prop where
  bcast_S_S32x512x1024 : S_.BroadcastsInDim S32x512x1024 (![] : Fin 0 → Fin S32x512x1024.rank)
  reducesTo_S32x512x1024_S_d0_1_2 : S32x512x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_
  bcast_S_S1024x3072 : S_.BroadcastsInDim S1024x3072 (![] : Fin 0 → Fin S1024x3072.rank)
  reducesTo_S1024x3072_S_d0_1 : S1024x3072.ReducesTo [0, 1] S_
  bcast_S_S2x3072 : S_.BroadcastsInDim S2x3072 (![] : Fin 0 → Fin S2x3072.rank)
  reducesTo_S2x3072_S_d0_1 : S2x3072.ReducesTo [0, 1] S_

variable [Facts]

def fn_part1 {F : FTy → Type} [FloatOps F] (main_arg4 : FVec F S1024x3072 .f32) (main_arg5 : FVec F S2x3072 .f32) (main_v13 : IVec S_ 1) (main_v16 : IVec S1024x3072 1) : IVec S_ 1 :=
  let main_c_5 : IVec S_ 1 := constantI S_ 1 1#1
  let main_v17 : IVec S_ 1 := (fun x v => Host.reduce IntOp.andi x v reducesTo_S1024x3072_S_d0_1 h_S_) main_v16 main_c_5
  let main_v18 : IVec S_ 1 := andi main_v13 main_v17
  let main_v19 : FVec F S1024x3072 .f32 := Host.absf main_arg4
  let main_cst_6 : FVec F S_ .f32 := constant S_ .f32 0x7F800000#32
  let main_v20 : FVec F S1024x3072 .f32 := broadcastInDim S1024x3072 ![] bcast_S_S1024x3072 main_cst_6
  let main_v21 : IVec S1024x3072 1 := cmpf .olt main_v19 main_v20
  let main_c_7 : IVec S_ 1 := constantI S_ 1 1#1
  let main_v22 : IVec S_ 1 := (fun x v => Host.reduce IntOp.andi x v reducesTo_S1024x3072_S_d0_1 h_S_) main_v21 main_c_7
  let main_v23 : IVec S_ 1 := andi main_v18 main_v22
  let main_v24 : FVec F S2x3072 .f32 := Host.absf main_arg5
  let main_cst_8 : FVec F S_ .f32 := constant S_ .f32 0x7F800000#32
  let main_v25 : FVec F S2x3072 .f32 := broadcastInDim S2x3072 ![] bcast_S_S2x3072 main_cst_8
  let main_v26 : IVec S2x3072 1 := cmpf .olt main_v24 main_v25
  let main_c_9 : IVec S_ 1 := constantI S_ 1 1#1
  let main_v27 : IVec S_ 1 := (fun x v => Host.reduce IntOp.andi x v reducesTo_S2x3072_S_d0_1 h_S_) main_v26 main_c_9
  let main_v28 : IVec S_ 1 := andi main_v23 main_v27
  main_v28

def fn {F : FTy → Type} [FloatOps F] (main_arg0 : FVec F S32x512x1024 .f32) (main_arg1 : FVec F S1024x1024 .f32) (main_arg2 : FVec F S1024 .f32) (main_arg3 : FVec F S1024x3072 .f32) (main_arg4 : FVec F S1024x3072 .f32) (main_arg5 : FVec F S2x3072 .f32) : IVec S_ 1 :=
  let main_v0 : FVec F S32x512x1024 .f32 := Host.absf main_arg0
  let main_cst : FVec F S_ .f32 := constant S_ .f32 0x7F800000#32
  let main_v1 : FVec F S32x512x1024 .f32 := broadcastInDim S32x512x1024 ![] bcast_S_S32x512x1024 main_cst
  let main_v2 : IVec S32x512x1024 1 := cmpf .olt main_v0 main_v1
  let main_c : IVec S_ 1 := constantI S_ 1 1#1
  let main_v3 : IVec S_ 1 := (fun x v => Host.reduce IntOp.andi x v reducesTo_S32x512x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x3072 .f32 := Host.absf main_arg3
  let main_cst_4 : FVec F S_ .f32 := constant S_ .f32 0x7F800000#32
  let main_v15 : FVec F S1024x3072 .f32 := broadcastInDim S1024x3072 ![] bcast_S_S1024x3072 main_cst_4
  let main_v16 : IVec S1024x3072 1 := cmpf .olt main_v14 main_v15
  fn_part1 (F := F) main_arg4 main_arg5 main_v13 main_v16
-- ==== Kernel.lean ====
abbrev S32x512x1024 : Shape := ⟨3, ![32, 512, 1024]⟩
abbrev S1024x1024 : Shape := ⟨2, ![1024, 1024]⟩
abbrev S1024 : Shape := ⟨1, ![1024]⟩
abbrev S1024x3072 : Shape := ⟨2, ![1024, 3072]⟩
abbrev S2x3072 : Shape := ⟨2, ![2, 3072]⟩
abbrev S16384x1024 : Shape := ⟨2, ![16384, 1024]⟩
abbrev S1x1024 : Shape := ⟨2, ![1, 1024]⟩
abbrev S1x3072 : Shape := ⟨2, ![1, 3072]⟩
abbrev S3072 : Shape := ⟨1, ![3072]⟩
abbrev S256x1024 : Shape := ⟨2, ![256, 1024]⟩
abbrev S256x3072 : Shape := ⟨2, ![256, 3072]⟩

abbrev nBuf : Space → Nat
  | .hbm => 21
  | .vmem => 12
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024, .f32⟩
  | .hbm, ⟨3, _⟩ => ⟨S1024x3072, .f32⟩
  | .hbm, ⟨4, _⟩ => ⟨S1024x3072, .f32⟩
  | .hbm, ⟨5, _⟩ => ⟨S2x3072, .f32⟩
  | .hbm, ⟨6, _⟩ => ⟨S16384x1024, .f32⟩
  | .hbm, ⟨7, _⟩ => ⟨S1024x1024, .bf16⟩
  | .hbm, ⟨8, _⟩ => ⟨S1024x3072, .bf16⟩
  | .hbm, ⟨9, _⟩ => ⟨S1024x3072, .bf16⟩
  | .hbm, ⟨10, _⟩ => ⟨S1x1024, .f32⟩
  | .hbm, ⟨11, _⟩ => ⟨S1x3072, .f32⟩
  | .hbm, ⟨12, _⟩ => ⟨S3072, .f32⟩
  | .hbm, ⟨13, _⟩ => ⟨S1x3072, .f32⟩
  | .hbm, ⟨14, _⟩ => ⟨S1x3072, .f32⟩
  | .hbm, ⟨15, _⟩ => ⟨S3072, .f32⟩
  | .hbm, ⟨16, _⟩ => ⟨S1x3072, .f32⟩
  | .hbm, ⟨17, _⟩ => ⟨S16384x1024, .f32⟩
  | .hbm, ⟨18, _⟩ => ⟨S16384x1024, .f32⟩
  | .hbm, ⟨19, _⟩ => ⟨S32x512x1024, .f32⟩
  | .hbm, ⟨20, _⟩ => ⟨S32x512x1024, .f32⟩
  | .local _ .vmem, ⟨0, _⟩ => ⟨S256x1024, .f32⟩
  | .local _ .vmem, ⟨1, _⟩ => ⟨S256x1024, .f32⟩
  | .local _ .vmem, ⟨2, _⟩ => ⟨S1024x1024, .bf16⟩
  | .local _ .vmem, ⟨3, _⟩ => ⟨S1x1024, .f32⟩
  | .local _ .vmem, ⟨4, _⟩ => ⟨S1024x3072, .bf16⟩
  | .local _ .vmem, ⟨5, _⟩ => ⟨S1024x3072, .bf16⟩
  | .local _ .vmem, ⟨6, _⟩ => ⟨S1x3072, .f32⟩
  | .local _ .vmem, ⟨7, _⟩ => ⟨S1x3072, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S32x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11_0 : Ref sig .tc := ⟨.hbm, 17, rfl⟩
abbrev main_v11_1 : Ref sig .tc := ⟨.hbm, 18, rfl⟩
abbrev main_v12 : Ref sig .tc := ⟨.hbm, 19, rfl⟩
abbrev main_v13 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x3072 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x3072 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S32x512x1024_S16384x1024 : S32x512x1024.ShapeCasts S16384x1024
  bitsLt_bf16_f32 : FTy.bits .bf16 < FTy.bits .f32
  shapeCasts_S1024_S1x1024 : S1024.ShapeCasts S1x1024
  slices_S2x3072_S1x3072_0_0 : S2x3072.Slices ![0, 0] S1x3072
  shapeCasts_S1x3072_S3072 : S1x3072.ShapeCasts S3072
  shapeCasts_S3072_S1x3072 : S3072.ShapeCasts S1x3072
  slices_S2x3072_S1x3072_1_0 : S2x3072.Slices ![1, 0] S1x3072
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S1x3072_S1x3072_0_0 : ∀ a, (![0, 0] : Fin 2 → Nat) a + S1x3072.size a ≤ S1x3072.size a
  h_S1x3072 : 0 < S1x3072.numel
  shapeCasts_S1x3072_S1x3072 : S1x3072.ShapeCasts S1x3072
  broadcasts_S1x3072_S256x3072 : S1x3072.Broadcasts S256x3072
  slices_S256x3072_o0_0_S256x1024 : S256x3072.Slices ![0, 0] S256x1024
  slices_S256x3072_o0_1024_S256x1024 : S256x3072.Slices ![0, 1024] S256x1024
  slices_S256x3072_o0_2048_S256x1024 : S256x3072.Slices ![0, 2048] S256x1024
  shapeCasts_S16384x1024_S32x512x1024 : S16384x1024.ShapeCasts S32x512x1024
  dot_S256x1024_S1024x1024_S256x1024_1_0_0_1_n_n_wf : DotDims.WF S256x1024 S1024x1024 S256x1024 [1] [0] [0] [1] [] []
  dot_S256x1024_S1024x3072_S256x3072_1_0_0_1_n_n_wf : DotDims.WF S256x1024 S1024x3072 S256x3072 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S16384x1024.size a
  hwx0_0 : ∀ i : grid0.Coords, EltTy.bits .f32 = 32 ∨ (Rect.block (s := S16384x1024) S256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x3072.size a ≤ S1024x3072.size a
  hwx0_3 : ∀ i : grid0.Coords, EltTy.bits .bf16 = 32 ∨ (Rect.block (s := S1024x3072) S1024x3072.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x3072.size a ≤ S1024x3072.size a
  hwx0_4 : ∀ i : grid0.Coords, EltTy.bits .bf16 = 32 ∨ (Rect.block (s := S1024x3072) S1024x3072.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x3072.size a ≤ S1x3072.size a
  hwx0_5 : ∀ i : grid0.Coords, EltTy.bits .f32 = 32 ∨ (Rect.block (s := S1x3072) S1x3072.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x3072.size a ≤ S1x3072.size a
  hwx0_6 : ∀ i : grid0.Coords, EltTy.bits .f32 = 32 ∨ (Rect.block (s := S1x3072) S1x3072.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x1024.size a ≤ S16384x1024.size a
  hwx0_7 : ∀ i : grid0.Coords, EltTy.bits .f32 = 32 ∨ (Rect.block (s := S16384x1024) S256x1024.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x1024.size a ≤ S16384x1024.size a
  hwx0_8 : ∀ i : grid0.Coords, EltTy.bits .f32 = 32 ∨ (Rect.block (s := S16384x1024) S256x1024.size (cc0_transform_8 i) (hinb0_8 i)).WholeWords (EltTy.packing .f32)

variable [Facts₀]

def dot_S256x1024_S1024x1024_S256x1024_1_0_0_1_n_n : DotDims S256x1024 S1024x1024 S256x1024 where
  lhsContracting := [1]
  rhsContracting := [0]
  lhsNonContracting := [0]
  rhsNonContracting := [1]
  lhsBatch := []
  rhsBatch := []
  wf := dot_S256x1024_S1024x1024_S256x1024_1_0_0_1_n_n_wf
def dot_S256x1024_S1024x3072_S256x3072_1_0_0_1_n_n : DotDims S256x1024 S1024x3072 S256x3072 where
  lhsContracting := [1]
  rhsContracting := [0]
  lhsNonContracting := [0]
  rhsNonContracting := [1]
  lhsBatch := []
  rhsBatch := []
  wf := dot_S256x1024_S1024x3072_S256x3072_1_0_0_1_n_n_wf

abbrev win0_0 : Pipeline.Window sig grid0 :=
  Pipeline.Window.ofSpec (Memref.whole main_v0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1024x3072.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x3072.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x3072.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v10) S1x3072.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11_0) S256x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v11_1) S256x1024.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32x512x1024 : Shape := ⟨3, ![32, 512, 1024]⟩
abbrev S1024x1024 : Shape := ⟨2, ![1024, 1024]⟩
abbrev S1024 : Shape := ⟨1, ![1024]⟩
abbrev S1024x3072 : Shape := ⟨2, ![1024, 3072]⟩
abbrev S2x3072 : Shape := ⟨2, ![2, 3072]⟩
abbrev S1x1x1024 : Shape := ⟨3, ![1, 1, 1024]⟩
abbrev S32x512x3072 : Shape := ⟨3, ![32, 512, 3072]⟩
abbrev S1x3072 : Shape := ⟨2, ![1, 3072]⟩
abbrev S3072 : Shape := ⟨1, ![3072]⟩
abbrev S1x1x3072 : Shape := ⟨3, ![1, 1, 3072]⟩
abbrev S_ : Shape := ⟨0, ![]⟩

abbrev nBuf : Space → Nat
  | .hbm => 55
  | .vmem => 0
  | .smem => 0
  | _ => 0

abbrev bufTy : (tb : Table) → Fin (tcTables nBuf tb) → BufTy
  | .hbm, ⟨0, _⟩ => ⟨S32x512x1024, .f32⟩
  | .hbm, ⟨1, _⟩ => ⟨S1024x1024, .f32⟩
  | .hbm, ⟨2, _⟩ => ⟨S1024, .f32⟩
  | .hbm, ⟨3, _⟩ => ⟨S1024x3072, .f32⟩
  | .hbm, ⟨4, _⟩ => ⟨S1024x3072, .f32⟩
  | .hbm, ⟨5, _⟩ => ⟨S2x3072, .f32⟩
  | .hbm, ⟨6, _⟩ => ⟨S32x512x1024, .f32⟩
  | .hbm, ⟨7, _⟩ => ⟨S1x1x1024, .f32⟩
  | .hbm, ⟨8, _⟩ => ⟨S32x512x1024, .f32⟩
  | .hbm, ⟨9, _⟩ => ⟨S32x512x1024, .f32⟩
  | .hbm, ⟨10, _⟩ => ⟨S32x512x3072, .f32⟩
  | .hbm, ⟨11, _⟩ => ⟨S1x3072, .f32⟩
  | .hbm, ⟨12, _⟩ => ⟨S3072, .f32⟩
  | .hbm, ⟨13, _⟩ => ⟨S1x1x3072, .f32⟩
  | .hbm, ⟨14, _⟩ => ⟨S32x512x3072, .f32⟩
  | .hbm, ⟨15, _⟩ => ⟨S32x512x3072, .f32⟩
  | .hbm, ⟨16, _⟩ => ⟨S32x512x3072, .f32⟩
  | .hbm, ⟨17, _⟩ => ⟨S1x3072, .f32⟩
  | .hbm, ⟨18, _⟩ => ⟨S3072, .f32⟩
  | .hbm, ⟨19, _⟩ => ⟨S1x1x3072, .f32⟩
  | .hbm, ⟨20, _⟩ => ⟨S32x512x3072, .f32⟩
  | .hbm, ⟨21, _⟩ => ⟨S32x512x3072, .f32⟩
  | .hbm, ⟨22, _⟩ => ⟨S32x512x1024, .f32⟩
  | .hbm, ⟨23, _⟩ => ⟨S32x512x1024, .f32⟩
  | .hbm, ⟨24, _⟩ => ⟨S32x512x1024, .f32⟩
  | .hbm, ⟨25, _⟩ => ⟨S32x512x1024, .f32⟩
  | .hbm, ⟨26, _⟩ => ⟨S32x512x1024, .f32⟩
  | .hbm, ⟨27, _⟩ => ⟨S32x512x1024, .f32⟩
  | .hbm, ⟨28, _⟩ => ⟨S32x512x1024, .f32⟩
  | .hbm, ⟨29, _⟩ => ⟨S32x512x1024, .f32⟩
  | .hbm, ⟨30, _⟩ => ⟨S32x512x1024, .f32⟩
  | .hbm, ⟨31, _⟩ => ⟨S_, .f32⟩
  | .hbm, ⟨32, _⟩ => ⟨S32x512x1024, .f32⟩
  | .hbm, ⟨33, _⟩ => ⟨S32x512x1024, .f32⟩
  | .hbm, ⟨34, _⟩ => ⟨S_, .f32⟩
  | .hbm, ⟨35, _⟩ => ⟨S32x512x1024, .f32⟩
  | .hbm, ⟨36, _⟩ => ⟨S32x512x1024, .f32⟩
  | .hbm, ⟨37, _⟩ => ⟨S32x512x1024, .f32⟩
  | .hbm, ⟨38, _⟩ => ⟨S32x512x1024, .f32⟩
  | .hbm, ⟨39, _⟩ => ⟨S32x512x1024, .f32⟩
  | .hbm, ⟨40, _⟩ => ⟨S_, .f32⟩
  | .hbm, ⟨41, _⟩ => ⟨S32x512x1024, .f32⟩
  | .hbm, ⟨42, _⟩ => ⟨S32x512x1024, .f32⟩
  | .hbm, ⟨43, _⟩ => ⟨S_, .f32⟩
  | .hbm, ⟨44, _⟩ => ⟨S32x512x1024, .f32⟩
  | .hbm, ⟨45, _⟩ => ⟨S32x512x1024, .f32⟩
  | .hbm, ⟨46, _⟩ => ⟨S32x512x1024, .f32⟩
  | .hbm, ⟨47, _⟩ => ⟨S32x512x1024, .f32⟩
  | .hbm, ⟨48, _⟩ => ⟨S32x512x1024, .f32⟩
  | .hbm, ⟨49, _⟩ => ⟨S32x512x1024, .f32⟩
  | .hbm, ⟨50, _⟩ => ⟨S_, .f32⟩
  | .hbm, ⟨51, _⟩ => ⟨S32x512x1024, .f32⟩
  | .hbm, ⟨52, _⟩ => ⟨S32x512x1024, .f32⟩
  | .hbm, ⟨53, _⟩ => ⟨S32x512x1024, .f32⟩
  | .hbm, ⟨54, _⟩ => ⟨S32x512x1024, .f32⟩
  | _, _ => ⟨S32x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_cst : Ref sig .tc := ⟨.hbm, 31, rfl⟩
abbrev main_v25 : Ref sig .tc := ⟨.hbm, 32, rfl⟩
abbrev main_v26 : Ref sig .tc := ⟨.hbm, 33, rfl⟩
abbrev main_cst_0 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_cst_1 : Ref sig .tc := ⟨.hbm, 40, rfl⟩
abbrev main_v32 : Ref sig .tc := ⟨.hbm, 41, rfl⟩
abbrev main_v33 : Ref sig .tc := ⟨.hbm, 42, rfl⟩
abbrev main_cst_2 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_3 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S32x512x1024_0_1_2 : S1x1x1024.BroadcastsInDim S32x512x1024 (![0, 1, 2] : Fin 3 → Fin S32x512x1024.rank)
  slices_S2x3072_S1x3072_0_0 : S2x3072.Slices ![0, 0] S1x3072
  shapeCasts_S1x3072_S3072 : S1x3072.ShapeCasts S3072
  bcast_S3072_S1x1x3072_2 : S3072.BroadcastsInDim S1x1x3072 (![2] : Fin 1 → Fin S1x1x3072.rank)
  bcast_S1x1x3072_S32x512x3072_0_1_2 : S1x1x3072.BroadcastsInDim S32x512x3072 (![0, 1, 2] : Fin 3 → Fin S32x512x3072.rank)
  slices_S2x3072_S1x3072_1_0 : S2x3072.Slices ![1, 0] S1x3072
  slices_S32x512x3072_S32x512x1024_0_0_0 : S32x512x3072.Slices ![0, 0, 0] S32x512x1024
  slices_S32x512x3072_S32x512x1024_0_0_1024 : S32x512x3072.Slices ![0, 0, 1024] S32x512x1024
  slices_S32x512x3072_S32x512x1024_0_0_2048 : S32x512x3072.Slices ![0, 0, 2048] S32x512x1024
  bcast_S_S32x512x1024 : S_.BroadcastsInDim S32x512x1024 (![] : Fin 0 → Fin S32x512x1024.rank)
  dot_S32x512x1024_S1024x1024_S32x512x1024_2_0_01_1_n_n_wf : DotDims.WF S32x512x1024 S1024x1024 S32x512x1024 [2] [0] [0, 1] [1] [] []
  dot_S32x512x1024_S1024x3072_S32x512x3072_2_0_01_1_n_n_wf : DotDims.WF S32x512x1024 S1024x3072 S32x512x3072 [2] [0] [0, 1] [1] [] []

variable [Facts₀]

def dot_S32x512x1024_S1024x1024_S32x512x1024_2_0_01_1_n_n : DotDims S32x512x1024 S1024x1024 S32x512x1024 where
  lhsContracting := [2]
  rhsContracting := [0]
  lhsNonContracting := [0, 1]
  rhsNonContracting := [1]
  lhsBatch := []
  rhsBatch := []
  wf := dot_S32x512x1024_S1024x1024_S32x512x1024_2_0_01_1_n_n_wf
def dot_S32x512x1024_S1024x3072_S32x512x3072_2_0_01_1_n_n : DotDims S32x512x1024 S1024x3072 S32x512x3072 where
  lhsContracting := [2]
  rhsContracting := [0]
  lhsNonContracting := [0, 1]
  rhsNonContracting := [1]
  lhsBatch := []
  rhsBatch := []
  wf := dot_S32x512x1024_S1024x3072_S32x512x3072_2_0_01_1_n_n_wf

class Facts : Prop extends Facts₀ where

variable [Facts]
-- ==== Proof.GruSpec.lean ====
/-
  The mathematics both programs compute, stated once over the extended reals.

  A row `x` of 1024 entries goes through a dense layer and one GRU step whose state is that same row:
    pred = x · Wd + bd                          (1024 entries)
    mx   = pred · Wg + bg₀                      (3072 entries: update | reset | candidate)
    mi   = x · Ug + bg₁                         (3072 entries, same three column groups)
    z    = σ (mx_z + mi_z),   r = σ (mx_r + mi_r)
    hh   = tanh (mx_h + r · mi_h)
    h'   = z · x + (1 − z) · hh
  Every row of the [32, 512, 1024] input is treated alike and independently, so the two results are these row
  functions applied at row (b, t). `σ` is `1 / (1 + e^(−s))` with the ideal instance's conventions at the infinities
  (`Ideal.logistic`), and the `1` of `1 − z` is kept as the float word both programs spell.
-/
import Idealize.ShloMosaic.PureOps.Ideal
import Idealize.ShloMosaic.Lib.ValueIdx
import Idealize.ShloMosaic.Lib.IdealHost

noncomputable section

namespace Cert.Gru

open Idealize.ShloMosaic Idealize.ShloMosaic.ValueIdx

/-- The word of the float `1.0`, read as an extended real. -/
abbrev one : EReal := Ideal.ofBits .f32 0x3F800000#32

/-- Entry `j` of `x · W + b`: the sum over the 1024 shared coordinates of the products, plus the bias. -/
def affine {N : Nat} (x : Fin 1024 → EReal) (W : Fin 1024 → Fin N → EReal) (b : Fin N → EReal) (j : Fin N) : EReal :=
  (∑ k : Fin 1024, x k * W k j) + b j

/-- Column `d` of the update-gate group of a 3072-wide row. -/
def colZ (d : Fin 1024) : Fin 3072 := ⟨d.val, by have := d.isLt; omega⟩
/-- Column `d` of the reset-gate group. -/
def colR (d : Fin 1024) : Fin 3072 := ⟨1024 + d.val, by have := d.isLt; omega⟩
/-- Column `d` of the candidate group. -/
def colH (d : Fin 1024) : Fin 3072 := ⟨2048 + d.val, by have := d.isLt; omega⟩

/-- Entry `d` of the new state from the old state `x` and the two 3072-wide pre-activations: the reset gate
    multiplies the recurrent candidate term only, after its product with `U` has been taken. -/
def cell (x : Fin 1024 → EReal) (mx mi : Fin 3072 → EReal) (d : Fin 1024) : EReal :=
  Ideal.logistic (mx (colZ d) + mi (colZ d)) * x d
    + (one - Ideal.logistic (mx (colZ d) + mi (colZ d)))
      * Ideal.tanh (mx (colH d) + Ideal.logistic (mx (colR d) + mi (colR d)) * mi (colH d))

/-- The dense layer's row, then the new state, from one input row and the five parameter arrays as functions of
    their coordinates. -/
def predRow (x : Fin 1024 → EReal) (Wd : Fin 1024 → Fin 1024 → EReal) (bd : Fin 1024 → EReal) : Fin 1024 → EReal :=
  affine x Wd bd

def stateRow (x : Fin 1024 → EReal) (Wd : Fin 1024 → Fin 1024 → EReal) (bd : Fin 1024 → EReal)
    (Wg Ug : Fin 1024 → Fin 3072 → EReal) (b0 b1 : Fin 3072 → EReal) : Fin 1024 → EReal :=
  cell x (affine (predRow x Wd bd) Wg b0) (affine x Ug b1)

/-! ## The two results over the argument arrays -/

/-- The first result, [32, 512, 1024]: at (b, t, d) the dense layer's entry `d` of input row (b, t). -/
def pred (X : (⟨3, ![32, 512, 1024]⟩ : Shape).Idx → EReal) (Wd : (⟨2, ![1024, 1024]⟩ : Shape).Idx → EReal)
    (bd : (⟨1, ![1024]⟩ : Shape).Idx → EReal) : (⟨3, ![32, 512, 1024]⟩ : Shape).Idx → EReal := fun i =>
  predRow (fun k => X (ix3 (i 0) (i 1) k)) (fun k d => Wd (ix2 k d)) (fun d => bd (ix1 d)) (i 2)

/-- The second result, [32, 512, 1024]: at (b, t, d) the new state's entry `d` of input row (b, t); the two bias
    rows are rows 0 and 1 of the [2, 3072] bias array. -/
def state (X : (⟨3, ![32, 512, 1024]⟩ : Shape).Idx → EReal) (Wd : (⟨2, ![1024, 1024]⟩ : Shape).Idx → EReal)
    (bd : (⟨1, ![1024]⟩ : Shape).Idx → EReal) (Wg Ug : (⟨2, ![1024, 3072]⟩ : Shape).Idx → EReal)
    (bg : (⟨2, ![2, 3072]⟩ : Shape).Idx → EReal) : (⟨3, ![32, 512, 1024]⟩ : Shape).Idx → EReal := fun i =>
  stateRow (fun k => X (ix3 (i 0) (i 1) k)) (fun k d => Wd (ix2 k d)) (fun d => bd (ix1 d))
    (fun k j => Wg (ix2 k j)) (fun k j => Ug (ix2 k j)) (fun j => bg (ix2 0 j)) (fun j => bg (ix2 1 j)) (i 2)

/-- The logistic function is `1 / (1 + e^(−s))` written with the float word of one, on every extended real: what a
    program that spells the sigmoid out as negate, exponential, add and divide computes. -/
theorem logistic_spelt (s : EReal) : Ideal.div one (one + Ideal.exp (-s)) = Ideal.logistic s := by
  unfold one Ideal.logistic
  rw [Ideal.ofBits_one_f32]

end Cert.Gru

end
-- ==== Proof.KernelPayload.lean ====
/-
  The kernel body's values at an index (p, q) of a [256, 1024] block, at the ideal instance, as the row functions of
  `Cert.Gru`: with `x` the block's row `p`, the first store holds `predRow x` at `q` and the second `stateRow x` at
  `q`. A change of float format is the identity there, each matrix product into a zero accumulator is the plain sum
  over the shared coordinate, a [1, n] bias broadcast down the rows reads its entry (0, q), and the three 1024-wide
  column slices of a 3072-wide value read columns q, 1024 + q and 2048 + q.
-/
import proofs.«164076_j87677462381238_1_alg».proof.Proof.Gen.KernelIdeal.Skeleton
import proofs.«164076_j87677462381238_1_alg».proof.Proof.GruSpec
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.SL.Sem
open Idealize.ShloMosaic.ValueIdx Cert.Gru

/-! ## The two matrix products -/

theorem lhs_dense_0 (i : S256x1024.Idx) (q : dot_S256x1024_S1024x1024_S256x1024_1_0_0_1_n_n.contr.Idx) :
    (dot_S256x1024_S1024x1024_S256x1024_1_0_0_1_n_n.lhsIdx i q 0).val = (i 0).val := by
  unfold DotDims.lhsIdx
  rw [dif_neg (show ¬(0 : Fin S256x1024.rank) ∈ dot_S256x1024_S1024x1024_S256x1024_1_0_0_1_n_n.lhsBatch by decide), dif_pos (show (0 : Fin S256x1024.rank) ∈ dot_S256x1024_S1024x1024_S256x1024_1_0_0_1_n_n.lhsNonContracting by decide)]
  rfl
theorem lhs_dense_1 (i : S256x1024.Idx) (q : dot_S256x1024_S1024x1024_S256x1024_1_0_0_1_n_n.contr.Idx) :
    (dot_S256x1024_S1024x1024_S256x1024_1_0_0_1_n_n.lhsIdx i q 1).val = (q ⟨0, by decide⟩).val :=
  dot_S256x1024_S1024x1024_S256x1024_1_0_0_1_n_n.lhsIdx_val_of_single rfl i q
theorem rhs_dense_0 (i : S256x1024.Idx) (q : dot_S256x1024_S1024x1024_S256x1024_1_0_0_1_n_n.contr.Idx) :
    (dot_S256x1024_S1024x1024_S256x1024_1_0_0_1_n_n.rhsIdx i q 0).val = (q ⟨0, by decide⟩).val :=
  dot_S256x1024_S1024x1024_S256x1024_1_0_0_1_n_n.rhsIdx_val_of_single rfl i q
theorem rhs_dense_1 (i : S256x1024.Idx) (q : dot_S256x1024_S1024x1024_S256x1024_1_0_0_1_n_n.contr.Idx) :
    (dot_S256x1024_S1024x1024_S256x1024_1_0_0_1_n_n.rhsIdx i q 1).val = (i 1).val := by
  unfold DotDims.rhsIdx
  rw [dif_neg (show ¬(1 : Fin S1024x1024.rank) ∈ dot_S256x1024_S1024x1024_S256x1024_1_0_0_1_n_n.rhsBatch by decide), dif_pos (show (1 : Fin S1024x1024.rank) ∈ dot_S256x1024_S1024x1024_S256x1024_1_0_0_1_n_n.rhsNonContracting by decide)]
  rfl

/-- The product into a zero accumulator, at (p, q): the sum over the shared coordinate `k` of left (p, k) times
    right (k, q). -/
theorem matmul_dense_apply {φ₁ φ₂ : FTy} (l : FVec Ideal S256x1024 φ₁) (r : FVec Ideal S1024x1024 φ₂) (i : S256x1024.Idx) :
    matmul dot_S256x1024_S1024x1024_S256x1024_1_0_0_1_n_n none l r (constant S256x1024 .f32 0x00000000#32) i
      = ∑ k : Fin 1024, (l (ix2 (i 0) k) : EReal) * (r (ix2 k (i 1)) : EReal) := by
  simp only [matmul]
  rw [Ideal.matmul_constant_zero_apply, ← Equiv.sum_comp (ValueIdx.contrEquiv1 dot_S256x1024_S1024x1024_S256x1024_1_0_0_1_n_n 1024 rfl rfl).symm]
  refine Finset.sum_congr rfl fun k _ => ?_
  have hk := ValueIdx.contrEquiv1_symm_val dot_S256x1024_S1024x1024_S256x1024_1_0_0_1_n_n 1024 rfl rfl k
  have el : dot_S256x1024_S1024x1024_S256x1024_1_0_0_1_n_n.lhsIdx i ((ValueIdx.contrEquiv1 dot_S256x1024_S1024x1024_S256x1024_1_0_0_1_n_n 1024 rfl rfl).symm k) = ix2 (i 0) k := funext fun a => Fin.ext (by
    match a with
    | ⟨0, _⟩ => exact lhs_dense_0 _ _
    | ⟨1, _⟩ => exact (lhs_dense_1 _ _).trans hk)
  have er : dot_S256x1024_S1024x1024_S256x1024_1_0_0_1_n_n.rhsIdx i ((ValueIdx.contrEquiv1 dot_S256x1024_S1024x1024_S256x1024_1_0_0_1_n_n 1024 rfl rfl).symm k) = ix2 k (i 1) := funext fun a => Fin.ext (by
    match a with
    | ⟨0, _⟩ => exact (rhs_dense_0 _ _).trans hk
    | ⟨1, _⟩ => exact rhs_dense_1 _ _)
  rw [el, er]
  rfl

theorem lhs_gates_0 (i : S256x3072.Idx) (q : dot_S256x1024_S1024x3072_S256x3072_1_0_0_1_n_n.contr.Idx) :
    (dot_S256x1024_S1024x3072_S256x3072_1_0_0_1_n_n.lhsIdx i q 0).val = (i 0).val := by
  unfold DotDims.lhsIdx
  rw [dif_neg (show ¬(0 : Fin S256x1024.rank) ∈ dot_S256x1024_S1024x3072_S256x3072_1_0_0_1_n_n.lhsBatch by decide), dif_pos (show (0 : Fin S256x1024.rank) ∈ dot_S256x1024_S1024x3072_S256x3072_1_0_0_1_n_n.lhsNonContracting by decide)]
  rfl
theorem lhs_gates_1 (i : S256x3072.Idx) (q : dot_S256x1024_S1024x3072_S256x3072_1_0_0_1_n_n.contr.Idx) :
    (dot_S256x1024_S1024x3072_S256x3072_1_0_0_1_n_n.lhsIdx i q 1).val = (q ⟨0, by decide⟩).val :=
  dot_S256x1024_S1024x3072_S256x3072_1_0_0_1_n_n.lhsIdx_val_of_single rfl i q
theorem rhs_gates_0 (i : S256x3072.Idx) (q : dot_S256x1024_S1024x3072_S256x3072_1_0_0_1_n_n.contr.Idx) :
    (dot_S256x1024_S1024x3072_S256x3072_1_0_0_1_n_n.rhsIdx i q 0).val = (q ⟨0, by decide⟩).val :=
  dot_S256x1024_S1024x3072_S256x3072_1_0_0_1_n_n.rhsIdx_val_of_single rfl i q
theorem rhs_gates_1 (i : S256x3072.Idx) (q : dot_S256x1024_S1024x3072_S256x3072_1_0_0_1_n_n.contr.Idx) :
    (dot_S256x1024_S1024x3072_S256x3072_1_0_0_1_n_n.rhsIdx i q 1).val = (i 1).val := by
  unfold DotDims.rhsIdx
  rw [dif_neg (show ¬(1 : Fin S1024x3072.rank) ∈ dot_S256x1024_S1024x3072_S256x3072_1_0_0_1_n_n.rhsBatch by decide), dif_pos (show (1 : Fin S1024x3072.rank) ∈ dot_S256x1024_S1024x3072_S256x3072_1_0_0_1_n_n.rhsNonContracting by decide)]
  rfl

/-- The product into a zero accumulator, at (p, q): the sum over the shared coordinate `k` of left (p, k) times
    right (k, q). -/
theorem matmul_gates_apply {φ₁ φ₂ : FTy} (l : FVec Ideal S256x1024 φ₁) (r : FVec Ideal S1024x3072 φ₂) (i : S256x3072.Idx) :
    matmul dot_S256x1024_S1024x3072_S256x3072_1_0_0_1_n_n none l r (constant S256x3072 .f32 0x00000000#32) i
      = ∑ k : Fin 1024, (l (ix2 (i 0) k) : EReal) * (r (ix2 k (i 1)) : EReal) := by
  simp only [matmul]
  rw [Ideal.matmul_constant_zero_apply, ← Equiv.sum_comp (ValueIdx.contrEquiv1 dot_S256x1024_S1024x3072_S256x3072_1_0_0_1_n_n 1024 rfl rfl).symm]
  refine Finset.sum_congr rfl fun k _ => ?_
  have hk := ValueIdx.contrEquiv1_symm_val dot_S256x1024_S1024x3072_S256x3072_1_0_0_1_n_n 1024 rfl rfl k
  have el : dot_S256x1024_S1024x3072_S256x3072_1_0_0_1_n_n.lhsIdx i ((ValueIdx.contrEquiv1 dot_S256x1024_S1024x3072_S256x3072_1_0_0_1_n_n 1024 rfl rfl).symm k) = ix2 (i 0) k := funext fun a => Fin.ext (by
    match a with
    | ⟨0, _⟩ => exact lhs_gates_0 _ _
    | ⟨1, _⟩ => exact (lhs_gates_1 _ _).trans hk)
  have er : dot_S256x1024_S1024x3072_S256x3072_1_0_0_1_n_n.rhsIdx i ((ValueIdx.contrEquiv1 dot_S256x1024_S1024x3072_S256x3072_1_0_0_1_n_n 1024 rfl rfl).symm k) = ix2 k (i 1) := funext fun a => Fin.ext (by
    match a with
    | ⟨0, _⟩ => exact (rhs_gates_0 _ _).trans hk
    | ⟨1, _⟩ => exact rhs_gates_1 _ _)
  rw [el, er]
  rfl

/-! ## Bias rows and column slices -/

/-- A [1, 1024] row broadcast to [256, 1024] reads its entry (0, q) at (p, q). -/
theorem bias1024_apply (v : S1x1024.Idx → EReal) (i : S256x1024.Idx) :
    broadcastTo S256x1024 v broadcasts_S1x1024_S256x1024 i = v (ix2 0 (i 1)) :=
  broadcastTo_apply v _ i (ix2 0 (i 1)) (fun a => by
    match a with
    | ⟨0, _⟩ => rfl
    | ⟨1, _⟩ => rfl)

/-- A [1, 3072] row broadcast to [256, 3072] reads its entry (0, j) at (p, j). -/
theorem bias3072_apply (v : S1x3072.Idx → EReal) (i : S256x3072.Idx) :
    broadcastTo S256x3072 v broadcasts_S1x3072_S256x3072 i = v (ix2 0 (i 1)) :=
  broadcastTo_apply v _ i (ix2 0 (i 1)) (fun a => by
    match a with
    | ⟨0, _⟩ => rfl
    | ⟨1, _⟩ => rfl)

/-- The update-gate columns of a [256, 3072] value: column `q` at (p, q). -/
theorem sliceZ_apply (v : S256x3072.Idx → EReal) (i : S256x1024.Idx) :
    extractStridedSlice S256x1024 ![0, 0] v slices_S256x3072_o0_0_S256x1024 i = v (ix2 (i 0) (colZ (i 1))) :=
  extractStridedSlice_apply _ v _ i (ix2 (i 0) (colZ (i 1))) (fun a => by
    match a with
    | ⟨0, _⟩ => show (i 0).val = 0 + (i 0).val; omega
    | ⟨1, _⟩ => show (i 1).val = 0 + (i 1).val; omega)

/-- The reset-gate columns: column `1024 + q` at (p, q). -/
theorem sliceR_apply (v : S256x3072.Idx → EReal) (i : S256x1024.Idx) :
    extractStridedSlice S256x1024 ![0, 1024] v slices_S256x3072_o0_1024_S256x1024 i = v (ix2 (i 0) (colR (i 1))) :=
  extractStridedSlice_apply _ v _ i (ix2 (i 0) (colR (i 1))) (fun a => by
    match a with
    | ⟨0, _⟩ => show (i 0).val = 0 + (i 0).val; omega
    | ⟨1, _⟩ => show 1024 + (i 1).val = 1024 + (i 1).val; rfl)

/-- The candidate columns: column `2048 + q` at (p, q). -/
theorem sliceH_apply (v : S256x3072.Idx → EReal) (i : S256x1024.Idx) :
    extractStridedSlice S256x1024 ![0, 2048] v slices_S256x3072_o0_2048_S256x1024 i = v (ix2 (i 0) (colH (i 1))) :=
  extractStridedSlice_apply _ v _ i (ix2 (i 0) (colH (i 1))) (fun a => by
    match a with
    | ⟨0, _⟩ => show (i 0).val = 0 + (i 0).val; omega
    | ⟨1, _⟩ => show 2048 + (i 1).val = 2048 + (i 1).val; rfl)

/-! ## The payloads -/

variable (x0 : Vec Ideal S256x1024 .f32) (x1 : Vec Ideal S1024x1024 .bf16) (x2 : Vec Ideal S1x1024 .f32)
  (x3 x4 : Vec Ideal S1024x3072 .bf16) (x5 x6 : Vec Ideal S1x3072 .f32)

/-- Row `p` of a [256, 1024] block. -/
abbrev rowOf (x : S256x1024.Idx → EReal) (p : Fin 256) : Fin 1024 → EReal := fun k => x (ix2 p k)
/-- A [1024, n] matrix as a function of its two coordinates. -/
abbrev matOf {n : Nat} (w : (⟨2, ![1024, n]⟩ : Shape).Idx → EReal) : Fin 1024 → Fin n → EReal := fun k j => w (ix2 k j)
/-- A [1, n] bias as a function of its column. -/
abbrev biasOf {n : Nat} (b : (⟨2, ![1, n]⟩ : Shape).Idx → EReal) : Fin n → EReal := fun j => b (ix2 0 j)

/-- The block itself, recast to its own shape. -/
theorem pay2_eq : k0_pay2 x0 = x0 := by
  unfold k0_pay2; exact shapeCast_self _ _

/-- The block in the matrix unit's input format: unchanged. -/
theorem pay3_eq : k0_pay3 x0 = x0 := by
  unfold k0_pay3; rw [pay2_eq]; rfl

/-- What the first store holds: the dense layer of the block's rows. -/
theorem pay4_apply (i : S256x1024.Idx) :
    k0_pay4 x0 x1 x2 i = predRow (rowOf x0 (i 0)) (matOf x1) (biasOf x2) (i 1) := by
  unfold k0_pay4
  rw [pay3_eq]
  simp only [shapeCast_self]
  rw [addf_apply, matmul_dense_apply, bias1024_apply]
  rfl

/-- The input-side pre-activation: the dense rows through `Wg`, plus the first bias row. -/
theorem pay5_apply (i : S256x3072.Idx) :
    k0_pay5 x0 x1 x2 x3 x5 i = affine (predRow (rowOf x0 (i 0)) (matOf x1) (biasOf x2)) (matOf x3) (biasOf x5) (i 1) := by
  unfold k0_pay5
  simp only [shapeCast_self]
  rw [addf_apply, matmul_gates_apply, bias3072_apply]
  unfold affine
  refine congrArg (· + _) (Finset.sum_congr rfl fun k _ => ?_)
  rw [truncf_apply, pay4_apply]

/-- The recurrent-side pre-activation: the block's rows through `Ug`, plus the second bias row. -/
theorem pay6_apply (i : S256x3072.Idx) :
    k0_pay6 x0 x4 x6 i = affine (rowOf x0 (i 0)) (matOf x4) (biasOf x6) (i 1) := by
  unfold k0_pay6
  rw [pay3_eq]
  simp only [shapeCast_self]
  rw [addf_apply, matmul_gates_apply, bias3072_apply]
  rfl

/-- The update gate. -/
theorem pay7_apply (i : S256x1024.Idx) :
    k0_pay7 x0 x1 x2 x3 x5 x4 x6 i
      = Ideal.logistic (affine (predRow (rowOf x0 (i 0)) (matOf x1) (biasOf x2)) (matOf x3) (biasOf x5) (colZ (i 1))
          + affine (rowOf x0 (i 0)) (matOf x4) (biasOf x6) (colZ (i 1))) := by
  unfold k0_pay7
  show Ideal.logistic (_ + _) = _
  rw [sliceZ_apply, sliceZ_apply, pay5_apply, pay6_apply]

/-- The candidate state. -/
theorem pay8_apply (i : S256x1024.Idx) :
    k0_pay8 x0 x1 x2 x3 x5 x4 x6 i
      = Ideal.tanh (affine (predRow (rowOf x0 (i 0)) (matOf x1) (biasOf x2)) (matOf x3) (biasOf x5) (colH (i 1))
          + Ideal.logistic (affine (predRow (rowOf x0 (i 0)) (matOf x1) (biasOf x2)) (matOf x3) (biasOf x5) (colR (i 1))
              + affine (rowOf x0 (i 0)) (matOf x4) (biasOf x6) (colR (i 1)))
            * affine (rowOf x0 (i 0)) (matOf x4) (biasOf x6) (colH (i 1))) := by
  unfold k0_pay8
  show Ideal.tanh (_ + Ideal.logistic (_ + _) * _) = _
  rw [sliceH_apply, sliceR_apply, sliceR_apply, sliceH_apply, pay5_apply, pay5_apply, pay6_apply, pay6_apply]

/-- What the second store holds: the new state of the block's rows. -/
theorem state_apply (i : S256x1024.Idx) :
    k0_pay1 (k0_pay2 x0) (k0_pay7 x0 x1 x2 x3 x5 x4 x6) (k0_pay8 x0 x1 x2 x3 x5 x4 x6) i
      = stateRow (rowOf x0 (i 0)) (matOf x1) (biasOf x2) (matOf x3) (matOf x4) (biasOf x5) (biasOf x6) (i 1) := by
  obtain ⟨p, q, rfl⟩ : ∃ (p : Fin 256) (q : Fin 1024), i = ix2 p q := ⟨i 0, i 1, eq_ix2 i⟩
  unfold k0_pay1
  rw [pay2_eq]
  show _ * _ + (_ - _) * _ = _
  rw [pay7_apply, pay8_apply]
  rfl

end Cert.KernelIdeal.Payload

end
-- ==== Proof.KernelArray.lean ====
/-
  From blocks to whole arrays. The grid has 64 points; point `t` sees rows 256·t … 256·t + 255 of the [16384, 1024]
  input through its first window, the five parameter arrays whole through the next six, and writes rows
  256·t … 256·t + 255 of both [16384, 1024] outputs. Since every row of an output block is a function of the SAME row
  of the input block (and of the whole parameters), what point `t` writes back is block `t` of one whole-array
  function, and the 64 blocks tile the rows: each output array ends holding that function.
-/
import proofs.«164076_j87677462381238_1_alg».proof.Proof.Gen.KernelIdeal.Frame
import proofs.«164076_j87677462381238_1_alg».proof.Proof.KernelPayload
import Idealize.ShloMosaic.Lib.Pipeline.Value

set_option maxRecDepth 16384

noncomputable section

namespace Cert.KernelIdeal.Arrays

open Cert.KernelIdeal Cert.KernelIdeal.Gen Idealize.ShloMosaic Idealize.ShloMosaic.TcCoe Idealize.SL.Sem
open Idealize.ShloMosaic.Pipeline (Dat)
open Idealize.ShloMosaic.ValueIdx Cert.Gru Cert.KernelIdeal.Payload

variable (m : (ℓ : Loc nD τ sig) → Buf (Elt Ideal) ℓ)

theorem hz : (![0, 0] : Fin 2 → Nat) = fun _ => 0 := funext fun a => by fin_cases a <;> rfl

/-- The printed index maps over the 64 points: the input and both outputs move down the rows with the point, every
    parameter window stays at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

/-! ## The input windows' blocks -/

/-- The input block at point `t`, at (p, k): the [16384, 1024] input at row 256·t + p. -/
theorem xblock_apply (c : Dev nD) (t : Fin cfg0.N) (y : S256x1024.Idx) (i : S16384x1024.Idx)
    (h0 : (i 0).val = 256 * t.val + (y 0).val) (h1 : (i 1).val = (y 1).val) :
    (iblk m c 0 t : Vec Ideal S256x1024 .f32) y = V m c main_v0 i := by
  obtain ⟨e0, e1, -⟩ := idx_facts t
  unfold iblk
  rw [View.read_apply]
  show V m c main_v0 _ = V m c main_v0 i
  congr 1
  funext a
  apply Fin.ext
  match a with
  | ⟨0, _⟩ => show win0_0.index t (0 : Fin 2) * 256 + 1 * (y 0).val = (i 0).val; omega
  | ⟨1, _⟩ => show win0_0.index t (1 : Fin 2) * 1024 + 1 * (y 1).val = (i 1).val; omega

/-- The dense weights' window is the whole array at every point. -/
theorem wdblock_eq (c : Dev nD) (t : Fin cfg0.N) : (iblk m c 1 t : Vec Ideal S1024x1024 .bf16) = V m c main_v1 := by
  obtain ⟨-, -, e0, e1, -⟩ := idx_facts t
  funext y
  unfold iblk
  rw [View.read_apply]
  show V m c main_v1 _ = V m c main_v1 y
  congr 1
  funext a
  apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- The dense bias's window likewise. -/
theorem bdblock_eq (c : Dev nD) (t : Fin cfg0.N) : (iblk m c 2 t : Vec Ideal S1x1024 .f32) = V m c main_v4 := by
  obtain ⟨-, -, -, -, e0, e1, -⟩ := idx_facts t
  funext y
  unfold iblk
  rw [View.read_apply]
  show V m c main_v4 _ = V m c main_v4 y
  congr 1
  funext a
  apply Fin.ext
  match a with
  | ⟨0, _⟩ => show win0_2.index t (0 : Fin 2) * 1 + 1 * (y 0).val = (y 0).val; omega
  | ⟨1, _⟩ => show win0_2.index t (1 : Fin 2) * 1024 + 1 * (y 1).val = (y 1).val; omega

/-- The input-side gate weights' window likewise. -/
theorem wgblock_eq (c : Dev nD) (t : Fin cfg0.N) : (iblk m c 3 t : Vec Ideal S1024x3072 .bf16) = V m c main_v2 := by
  obtain ⟨-, -, -, -, -, -, e0, e1, -⟩ := idx_facts t
  funext y
  unfold iblk
  rw [View.read_apply]
  show V m c main_v2 _ = V m c main_v2 y
  congr 1
  funext a
  apply Fin.ext
  match a with
  | ⟨0, _⟩ => show win0_3.index t (0 : Fin 2) * 1024 + 1 * (y 0).val = (y 0).val; omega
  | ⟨1, _⟩ => show win0_3.index t (1 : Fin 2) * 3072 + 1 * (y 1).val = (y 1).val; omega

/-- The recurrent-side gate weights' window likewise. -/
theorem ugblock_eq (c : Dev nD) (t : Fin cfg0.N) : (iblk m c 4 t : Vec Ideal S1024x3072 .bf16) = V m c main_v3 := by
  obtain ⟨-, -, -, -, -, -, -, -, e0, e1, -⟩ := idx_facts t
  funext y
  unfold iblk
  rw [View.read_apply]
  show V m c main_v3 _ = V m c main_v3 y
  congr 1
  funext a
  apply Fin.ext
  match a with
  | ⟨0, _⟩ => show win0_4.index t (0 : Fin 2) * 1024 + 1 * (y 0).val = (y 0).val; omega
  | ⟨1, _⟩ => show win0_4.index t (1 : Fin 2) * 3072 + 1 * (y 1).val = (y 1).val; omega

/-- The first gate-bias row's window likewise. -/
theorem b0block_eq (c : Dev nD) (t : Fin cfg0.N) : (iblk m c 5 t : Vec Ideal S1x3072 .f32) = V m c main_v7 := by
  obtain ⟨-, -, -, -, -, -, -, -, -, -, e0, e1, -⟩ := idx_facts t
  funext y
  unfold iblk
  rw [View.read_apply]
  show V m c main_v7 _ = V m c main_v7 y
  congr 1
  funext a
  apply Fin.ext
  match a with
  | ⟨0, _⟩ => show win0_5.index t (0 : Fin 2) * 1 + 1 * (y 0).val = (y 0).val; omega
  | ⟨1, _⟩ => show win0_5.index t (1 : Fin 2) * 3072 + 1 * (y 1).val = (y 1).val; omega

/-- The second gate-bias row's window likewise. -/
theorem b1block_eq (c : Dev nD) (t : Fin cfg0.N) : (iblk m c 6 t : Vec Ideal S1x3072 .f32) = V m c main_v10 := by
  obtain ⟨-, -, -, -, -, -, -, -, -, -, -, -, e0, e1, -⟩ := idx_facts t
  funext y
  unfold iblk
  rw [View.read_apply]
  show V m c main_v10 _ = V m c main_v10 y
  congr 1
  funext a
  apply Fin.ext
  match a with
  | ⟨0, _⟩ => show win0_6.index t (0 : Fin 2) * 1 + 1 * (y 0).val = (y 0).val; omega
  | ⟨1, _⟩ => show win0_6.index t (1 : Fin 2) * 3072 + 1 * (y 1).val = (y 1).val; omega

/-! ## The two output arrays as whole-array functions -/

/-- Row `n` of a [16384, 1024] array. -/
abbrev bigRow (X : S16384x1024.Idx → EReal) (n : Fin 16384) : Fin 1024 → EReal := fun k => X (ix2 n k)

/-- The first output, [16384, 1024]: the dense layer of each input row. -/
def densed (X : S16384x1024.Idx → EReal) (Wd : S1024x1024.Idx → EReal) (bd : S1x1024.Idx → EReal) : S16384x1024.Idx → EReal :=
  fun i => predRow (bigRow X (i 0)) (matOf Wd) (biasOf bd) (i 1)

/-- The second output, [16384, 1024]: the new state of each input row. -/
def stepped (X : S16384x1024.Idx → EReal) (Wd : S1024x1024.Idx → EReal) (bd : S1x1024.Idx → EReal)
    (Wg Ug : S1024x3072.Idx → EReal) (b0 b1 : S1x3072.Idx → EReal) : S16384x1024.Idx → EReal :=
  fun i => stateRow (bigRow X (i 0)) (matOf Wd) (biasOf bd) (matOf Wg) (matOf Ug) (biasOf b0) (biasOf b1) (i 1)

/-- Row `p` of the input block at point `t` is row 256·t + p of the input. -/
theorem xrow_eq (c : Dev nD) (t : Fin cfg0.N) (p : Fin 256) (n : Fin 16384) (h : n.val = 256 * t.val + p.val) :
    rowOf (iblk m c 0 t : Vec Ideal S256x1024 .f32) p = bigRow (V m c main_v0) n :=
  funext fun k => xblock_apply m c t (ix2 p k) (ix2 n k) h rfl

/-- WHAT POINT `t` WRITES BACK to the first output is block `t` of `densed` of the arrays as the region finds them. -/
theorem flushed7_eq (c : Dev nD) (t : Fin cfg0.N) :
    (dats m 0 c).flushed 7 t = ((cfg0.win 7).blk t).view.read (Elt Ideal) (densed (V m c main_v0) (V m c main_v1) (V m c main_v4)) := by
  show (cfg0.win 7).cut (grid0.coords t) ((dats m 0 c).after 7 t) = _
  rw [after0_7]
  unfold out0_7
  rw [View.canon_unit_zero hz]
  simp only [View.ld_unit_zero (S := S256x1024) hz, View.ld_unit_zero (S := S1024x1024) hz, View.ld_unit_zero (S := S1x1024) hz]
  obtain ⟨-, -, -, -, -, -, -, -, -, -, -, -, -, -, e0, e1, -⟩ := idx_facts t
  funext y
  show k0_pay4 (iblk m c 0 t) (iblk m c 1 t) (iblk m c 2 t) y
    = densed (V m c main_v0) (V m c main_v1) (V m c main_v4) (((cfg0.win 7).blk t).view.emb y)
  have hi0 : ((((cfg0.win 7).blk t).view.emb y) 0).val = 256 * t.val + (y 0).val := by
    show win0_7.index t (0 : Fin 2) * 256 + 1 * (y 0).val = _; omega
  have hi1 : (((cfg0.win 7).blk t).view.emb y) 1 = y 1 := Fin.ext (by
    show win0_7.index t (1 : Fin 2) * 1024 + 1 * (y 1).val = (y 1).val; omega)
  refine (pay4_apply (iblk m c 0 t) (iblk m c 1 t) (iblk m c 2 t) y).trans ?_
  unfold densed
  rw [xrow_eq m c t (y 0) _ hi0, wdblock_eq m c t, bdblock_eq m c t, hi1]

/-- WHAT POINT `t` WRITES BACK to the second output is block `t` of `stepped`. -/
theorem flushed8_eq (c : Dev nD) (t : Fin cfg0.N) :
    (dats m 0 c).flushed 8 t = ((cfg0.win 8).blk t).view.read (Elt Ideal)
      (stepped (V m c main_v0) (V m c main_v1) (V m c main_v4) (V m c main_v2) (V m c main_v3) (V m c main_v7) (V m c main_v10)) := by
  show (cfg0.win 8).cut (grid0.coords t) ((dats m 0 c).after 8 t) = _
  rw [after0_8]
  unfold out0_8
  rw [View.canon_unit_zero hz]
  simp only [View.ld_unit_zero (S := S256x1024) hz, View.ld_unit_zero (S := S1024x1024) hz, View.ld_unit_zero (S := S1x1024) hz,
    View.ld_unit_zero (S := S1024x3072) hz, View.ld_unit_zero (S := S1x3072) hz]
  obtain ⟨-, -, -, -, -, -, -, -, -, -, -, -, -, -, -, -, e0, e1⟩ := idx_facts t
  funext y
  show k0_pay1 (k0_pay2 (iblk m c 0 t)) (k0_pay7 (iblk m c 0 t) (iblk m c 1 t) (iblk m c 2 t) (iblk m c 3 t) (iblk m c 5 t) (iblk m c 4 t) (iblk m c 6 t))
      (k0_pay8 (iblk m c 0 t) (iblk m c 1 t) (iblk m c 2 t) (iblk m c 3 t) (iblk m c 5 t) (iblk m c 4 t) (iblk m c 6 t)) y
    = stepped (V m c main_v0) (V m c main_v1) (V m c main_v4) (V m c main_v2) (V m c main_v3) (V m c main_v7) (V m c main_v10) (((cfg0.win 8).blk t).view.emb y)
  have hi0 : ((((cfg0.win 8).blk t).view.emb y) 0).val = 256 * t.val + (y 0).val := by
    show win0_8.index t (0 : Fin 2) * 256 + 1 * (y 0).val = _; omega
  have hi1 : (((cfg0.win 8).blk t).view.emb y) 1 = y 1 := Fin.ext (by
    show win0_8.index t (1 : Fin 2) * 1024 + 1 * (y 1).val = (y 1).val; omega)
  refine (state_apply (iblk m c 0 t) (iblk m c 1 t) (iblk m c 2 t) (iblk m c 3 t) (iblk m c 4 t) (iblk m c 5 t) (iblk m c 6 t) y).trans ?_
  unfold stepped
  rw [xrow_eq m c t (y 0) _ hi0, wdblock_eq m c t, bdblock_eq m c t, wgblock_eq m c t, ugblock_eq m c t, b0block_eq m c t, b1block_eq m c t, hi1]

/-! ## The blocks tile the rows -/

/-- An index of the first output is in point `t`'s block iff each coordinate is in the block's range on its axis. -/
theorem mem_blk7 (t : Fin cfg0.N) (i : S16384x1024.Idx) :
    i ∈ ((cfg0.win 7).blk t).view.set ↔ ∀ a : Fin 2, win0_7.index t a * S256x1024.size a ≤ (i a).val ∧ (i a).val < win0_7.index t a * S256x1024.size a + S256x1024.size a := by
  show i ∈ ((View.whole main_v11_0).slice (win0_7.rect t)).set ↔ _
  rw [View.set_slice_whole, Rect.mem_set_unit]
  exact Iff.rfl

theorem mem_blk8 (t : Fin cfg0.N) (i : S16384x1024.Idx) :
    i ∈ ((cfg0.win 8).blk t).view.set ↔ ∀ a : Fin 2, win0_8.index t a * S256x1024.size a ≤ (i a).val ∧ (i a).val < win0_8.index t a * S256x1024.size a + S256x1024.size a := by
  show i ∈ ((View.whole main_v11_1).slice (win0_8.rect t)).set ↔ _
  rw [View.set_slice_whole, Rect.mem_set_unit]
  exact Iff.rfl

/-- Row `n` lies in the block of point `n / 256`. -/
theorem cover7 (i : S16384x1024.Idx) : ∃ t : Fin cfg0.N, (cfg0.win 7).flush t = true ∧ i ∈ ((cfg0.win 7).blk t).view.set := by
  have hi0 : (i 0).val < 16384 := (i 0).isLt
  have hi1 : (i 1).val < 1024 := (i 1).isLt
  have hN : (i 0).val / 256 < cfg0.N := by show (i 0).val / 256 < grid0.N; rw [N_0]; omega
  obtain ⟨-, -, -, -, -, -, -, -, -, -, -, -, -, -, e0, e1, -⟩ := idx_facts ⟨(i 0).val / 256, hN⟩
  refine ⟨⟨(i 0).val / 256, hN⟩, flush0_7 _, ?_⟩
  rw [mem_blk7]
  intro a
  match a with
  | ⟨0, _⟩ =>
    show win0_7.index ⟨(i 0).val / 256, hN⟩ (0 : Fin 2) * 256 ≤ (i 0).val ∧ (i 0).val < win0_7.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_7.index ⟨(i 0).val / 256, hN⟩ (1 : Fin 2) * 1024 ≤ (i 1).val ∧ (i 1).val < win0_7.index ⟨(i 0).val / 256, hN⟩ (1 : Fin 2) * 1024 + 1024
    rw [e1]; omega

theorem cover8 (i : S16384x1024.Idx) : ∃ t : Fin cfg0.N, (cfg0.win 8).flush t = true ∧ i ∈ ((cfg0.win 8).blk t).view.set := by
  have hi0 : (i 0).val < 16384 := (i 0).isLt
  have hi1 : (i 1).val < 1024 := (i 1).isLt
  have hN : (i 0).val / 256 < cfg0.N := by show (i 0).val / 256 < grid0.N; rw [N_0]; omega
  obtain ⟨-, -, -, -, -, -, -, -, -, -, -, -, -, -, -, -, e0, e1⟩ := idx_facts ⟨(i 0).val / 256, hN⟩
  refine ⟨⟨(i 0).val / 256, hN⟩, flush0_8 _, ?_⟩
  rw [mem_blk8]
  intro a
  match a with
  | ⟨0, _⟩ =>
    show win0_8.index ⟨(i 0).val / 256, hN⟩ (0 : Fin 2) * 256 ≤ (i 0).val ∧ (i 0).val < win0_8.index ⟨(i 0).val / 256, hN⟩ (0 : Fin 2) * 256 + 256
    rw [e0]; show (i 0).val / 256 * 256 ≤ (i 0).val ∧ (i 0).val < (i 0).val / 256 * 256 + 256; omega
  | ⟨1, _⟩ =>
    show win0_8.index ⟨(i 0).val / 256, hN⟩ (1 : Fin 2) * 1024 ≤ (i 1).val ∧ (i 1).val < win0_8.index ⟨(i 0).val / 256, hN⟩ (1 : Fin 2) * 1024 + 1024
    rw [e1]; omega

/-- THE FIRST OUTPUT ARRAY after the region. -/
theorem final7 (c : Dev nD) :
    (dats m 0 c).arrAt 7 cfg0.N = densed (V m c main_v0) (V m c main_v1) (V m c main_v4) :=
  (dats m 0 c).arrAt_eq_of_cover 7 _ (fun t _ => flushed7_eq m c t) cover7

/-- THE SECOND OUTPUT ARRAY after the region. -/
theorem final8 (c : Dev nD) :
    (dats m 0 c).arrAt 8 cfg0.N
      = stepped (V m c main_v0) (V m c main_v1) (V m c main_v4) (V m c main_v2) (V m c main_v3) (V m c main_v7) (V m c main_v10) :=
  (dats m 0 c).arrAt_eq_of_cover 8 _ (fun t _ => flushed8_eq m c t) cover8

end Cert.KernelIdeal.Arrays

end
-- ==== Proof.KernelRun.lean ====
/-
  The kernel program end to end. Before the region the host reshapes the [32, 512, 1024] input to [16384, 1024]
  (row 512·b + t is row (b, t)), changes the three weight matrices' float format (the identity at the ideal
  instance), views the [1024] bias as [1, 1024], and cuts the two rows of the [2, 3072] bias out as [1, 3072]
  arrays; after the region it reshapes both [16384, 1024] outputs back to [32, 512, 1024]. So the program's two
  results are `Gru.pred` and `Gru.state` of its arguments.
-/
import proofs.«164076_j87677462381238_1_alg».proof.Proof.Gen.KernelIdeal.Frame
import proofs.«164076_j87677462381238_1_alg».proof.Proof.KernelArray
import Idealize.ShloMosaic.Lib.Pipeline.Value
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem
open Idealize.ShloMosaic.StableHlo
open Idealize.ShloMosaic.Pipeline (Dat)
open Idealize.ShloMosaic.ValueIdx Cert.Gru Cert.KernelIdeal.Payload Cert.KernelIdeal.Arrays

variable (m : (ℓ : Loc nD τ sig) → Buf (Elt Ideal) ℓ) (ρ : Dev nD → PrngReg)

/-! ## What the region finds in its seven input arrays -/

theorem v0_eq (c : Dev nD) : (V m c main_v0 : S16384x1024.Idx → EReal)
    = shapeCast S16384x1024 (m ((c : Thread nD τ).loc main_arg0)) shapeCasts_S32x512x1024_S16384x1024 := by
  show StableHlo.after hostOps0 (fun b => m (c, b)) (Proc.devRef .tc main_v0) = _
  after_results
  rfl

theorem v1_eq (c : Dev nD) : (V m c main_v1 : S1024x1024.Idx → EReal)
    = truncf (F := Ideal) .bf16 (m ((c : Thread nD τ).loc main_arg1)) bitsLt_bf16_f32 := by
  show StableHlo.after hostOps0 (fun b => m (c, b)) (Proc.devRef .tc main_v1) = _
  after_results

theorem v2_eq (c : Dev nD) : (V m c main_v2 : S1024x3072.Idx → EReal)
    = truncf (F := Ideal) .bf16 (m ((c : Thread nD τ).loc main_arg3)) bitsLt_bf16_f32 := by
  show StableHlo.after hostOps0 (fun b => m (c, b)) (Proc.devRef .tc main_v2) = _
  after_results

theorem v3_eq (c : Dev nD) : (V m c main_v3 : S1024x3072.Idx → EReal)
    = truncf (F := Ideal) .bf16 (m ((c : Thread nD τ).loc main_arg4)) bitsLt_bf16_f32 := by
  show StableHlo.after hostOps0 (fun b => m (c, b)) (Proc.devRef .tc main_v3) = _
  after_results

theorem v4_eq (c : Dev nD) : (V m c main_v4 : S1x1024.Idx → EReal)
    = shapeCast S1x1024 (m ((c : Thread nD τ).loc main_arg2)) shapeCasts_S1024_S1x1024 := by
  show StableHlo.after hostOps0 (fun b => m (c, b)) (Proc.devRef .tc main_v4) = _
  after_results
  rfl

theorem v7_eq (c : Dev nD) : (V m c main_v7 : S1x3072.Idx → EReal)
    = shapeCast S1x3072 (shapeCast S3072 (extractStridedSlice S1x3072 ![0, 0] (m ((c : Thread nD τ).loc main_arg5)) slices_S2x3072_S1x3072_0_0)
        shapeCasts_S1x3072_S3072) shapeCasts_S3072_S1x3072 := by
  show StableHlo.after hostOps0 (fun b => m (c, b)) (Proc.devRef .tc main_v7) = _
  after_results
  rfl

theorem v10_eq (c : Dev nD) : (V m c main_v10 : S1x3072.Idx → EReal)
    = shapeCast S1x3072 (shapeCast S3072 (extractStridedSlice S1x3072 ![1, 0] (m ((c : Thread nD τ).loc main_arg5)) slices_S2x3072_S1x3072_1_0)
        shapeCasts_S1x3072_S3072) shapeCasts_S3072_S1x3072 := by
  show StableHlo.after hostOps0 (fun b => m (c, b)) (Proc.devRef .tc main_v10) = _
  after_results
  rfl

/-- Row 512·b + t of the reshaped input is row (b, t) of the input. -/
theorem xrow (c : Dev nD) (a : Fin 32) (b : Fin 512) (n : Fin 16384) (h : n.val = a.val * 512 + b.val) :
    bigRow (V m c main_v0) n = fun k => m ((c : Thread nD τ).loc main_arg0) (ix3 a b k) := by
  funext k
  show (V m c main_v0 : S16384x1024.Idx → EReal) (ix2 n k) = _
  rw [v0_eq]
  exact shapeCast_apply _ _ (ix2 n k) (ix3 a b k) (by
    rw [Shape.rowMajor_val_three, Shape.rowMajor_val_two]
    show (a.val * 512 + b.val) * 1024 + k.val = n.val * 1024 + k.val
    rw [h])

/-- The three weight matrices reach the region unchanged as functions of their coordinates. -/
theorem wd_eq (c : Dev nD) : matOf (V m c main_v1) = fun k d => m ((c : Thread nD τ).loc main_arg1) (ix2 k d) := by
  funext k d
  show (V m c main_v1 : S1024x1024.Idx → EReal) (ix2 k d) = _
  rw [v1_eq]; rfl
theorem wg_eq (c : Dev nD) : matOf (V m c main_v2) = fun k j => m ((c : Thread nD τ).loc main_arg3) (ix2 k j) := by
  funext k j
  show (V m c main_v2 : S1024x3072.Idx → EReal) (ix2 k j) = _
  rw [v2_eq]; rfl
theorem ug_eq (c : Dev nD) : matOf (V m c main_v3) = fun k j => m ((c : Thread nD τ).loc main_arg4) (ix2 k j) := by
  funext k j
  show (V m c main_v3 : S1024x3072.Idx → EReal) (ix2 k j) = _
  rw [v3_eq]; rfl

/-- The [1024] bias viewed as [1, 1024]: entry (0, d) is entry d. -/
theorem bd_eq (c : Dev nD) : biasOf (V m c main_v4) = fun d => m ((c : Thread nD τ).loc main_arg2) (ix1 d) := by
  funext d
  show (V m c main_v4 : S1x1024.Idx → EReal) (ix2 0 d) = _
  rw [v4_eq]
  exact shapeCast_apply _ _ (ix2 0 d) (ix1 d) (by
    rw [Shape.rowMajor_val_one, Shape.rowMajor_val_two]
    show d.val = 0 * 1024 + d.val
    omega)

/-- Row 0 of the [2, 3072] bias, cut out, flattened and viewed as [1, 3072]: entry (0, j) is entry (0, j). -/
theorem b0_eq (c : Dev nD) : biasOf (V m c main_v7) = fun j => m ((c : Thread nD τ).loc main_arg5) (ix2 0 j) := by
  funext j
  show (V m c main_v7 : S1x3072.Idx → EReal) (ix2 0 j) = _
  rw [v7_eq, shapeCast_shapeCast]
  exact extractStridedSlice_apply _ _ _ (ix2 0 j) (ix2 0 j) (fun a => by
    match a with
    | ⟨0, _⟩ => rfl
    | ⟨1, _⟩ => show j.val = 0 + j.val; omega)

/-- Row 1 likewise: entry (0, j) of the cut is entry (1, j). -/
theorem b1_eq (c : Dev nD) : biasOf (V m c main_v10) = fun j => m ((c : Thread nD τ).loc main_arg5) (ix2 1 j) := by
  funext j
  show (V m c main_v10 : S1x3072.Idx → EReal) (ix2 0 j) = _
  rw [v10_eq, shapeCast_shapeCast]
  exact extractStridedSlice_apply _ _ _ (ix2 0 j) (ix2 1 j) (fun a => by
    match a with
    | ⟨0, _⟩ => rfl
    | ⟨1, _⟩ => show j.val = 0 + j.val; omega)

/-! ## The two results -/

/-- (b, t, d) of a [32, 512, 1024] reshape of a [16384, 1024] array is its entry (512·b + t, d). -/
theorem unflatten_apply (A : S16384x1024.Idx → EReal) (a : Fin 32) (b : Fin 512) (d : Fin 1024) (n : Fin 16384)
    (h : n.val = a.val * 512 + b.val) :
    shapeCast S32x512x1024 A shapeCasts_S16384x1024_S32x512x1024 (ix3 a b d) = A (ix2 n d) :=
  shapeCast_apply _ _ (ix3 a b d) (ix2 n d) (by
    rw [Shape.rowMajor_val_three, Shape.rowMajor_val_two]
    show n.val * 1024 + d.val = (a.val * 512 + b.val) * 1024 + d.val
    rw [h])

/-- The flat row number of row (b, t). -/
def flatRow (a : Fin 32) (b : Fin 512) : Fin 16384 := ⟨a.val * 512 + b.val, by have := a.isLt; have := b.isLt; omega⟩

/-- The first result after the host's last lines. -/
theorem pred_eq (c : Dev nD) :
    Pipeline.afterTail₀ cfgs (dats m) 0 (V0 m) [hostOps1] c main_v12
      = pred (m ((c : Thread nD τ).loc main_arg0)) (m ((c : Thread nD τ).loc main_arg1)) (m ((c : Thread nD τ).loc main_arg2)) := by
  have e : Pipeline.afterTail₀ cfgs (dats m) 0 (V0 m) [hostOps1] c main_v12
      = shapeCast S32x512x1024 ((dats m 0 c).arrAt 7 cfg0.N) shapeCasts_S16384x1024_S32x512x1024 := by
    unfold Pipeline.afterTail₀
    show StableHlo.after hostOps1 _ (Proc.devRef .tc main_v12) = _
    after_results
    rw [Pipeline.withArrays_arr spec0 launch0.win.arr_inj c _ _ 7]
    rfl
  rw [e, final7]
  funext i
  obtain ⟨a, b, d, rfl⟩ : ∃ (a : Fin 32) (b : Fin 512) (d : Fin 1024), i = ix3 a b d := ⟨i 0, i 1, i 2, eq_ix3 i⟩
  rw [unflatten_apply _ a b d (flatRow a b) rfl]
  unfold densed pred
  rw [xrow m c a b (flatRow a b) rfl, wd_eq, bd_eq]

/-- The second result after the host's last lines. -/
theorem state_eq (c : Dev nD) :
    Pipeline.afterTail₀ cfgs (dats m) 0 (V0 m) [hostOps1] c main_v13
      = state (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  have e : Pipeline.afterTail₀ cfgs (dats m) 0 (V0 m) [hostOps1] c main_v13
      = shapeCast S32x512x1024 ((dats m 0 c).arrAt 8 cfg0.N) shapeCasts_S16384x1024_S32x512x1024 := by
    unfold Pipeline.afterTail₀
    show StableHlo.after hostOps1 _ (Proc.devRef .tc main_v13) = _
    after_results
    rw [Pipeline.withArrays_arr spec0 launch0.win.arr_inj c _ _ 8]
    rfl
  rw [e, final8]
  funext i
  obtain ⟨a, b, d, rfl⟩ : ∃ (a : Fin 32) (b : Fin 512) (d : Fin 1024), i = ix3 a b d := ⟨i 0, i 1, i 2, eq_ix3 i⟩
  rw [unflatten_apply _ a b d (flatRow a b) rfl]
  unfold stepped state
  rw [xrow m c a b (flatRow a b) rfl, wd_eq, bd_eq, wg_eq, ug_eq, b0_eq, b1_eq]

/-- THE KERNEL PROGRAM'S RUN: every weakly fair execution terminates with the two results at `Gru.pred` and
    `Gru.state` of the arguments, the arguments unchanged. -/
theorem run : θ_run defs (onTc (τ := τ) (main (F := Ideal))) ⟨m, fun _ => 0, ρ⟩ fun r => ∀ c : Dev nD,
      r.2.mem ((c.tc : Thread nD τ).loc main_v12)
        = pred (m ((c.tc : Thread nD τ).loc main_arg0)) (m ((c.tc : Thread nD τ).loc main_arg1)) (m ((c.tc : Thread nD τ).loc main_arg2))
      ∧ r.2.mem ((c.tc : Thread nD τ).loc main_v13)
        = state (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v12 (Pipeline.mem_restRefs_of main_v12 (by decide) (by decide))).trans (pred_eq m c),
     ((h c).2 main_v13 (Pipeline.mem_restRefs_of main_v13 (by decide) (by decide))).trans (state_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c),
     ((h c).2 main_arg4 (Pipeline.mem_restRefs_of main_arg4 (by decide) (by decide))).trans (W_main_arg4 m (dats m) c),
     ((h c).2 main_arg5 (Pipeline.mem_restRefs_of main_arg5 (by decide) (by decide))).trans (W_main_arg5 m (dats m) c)⟩)
    (run_main m ρ)

end Cert.KernelIdeal.Run

end
-- ==== Proof.RefValue.lean ====
/-
  The reference's two results are the row functions of `Cert.Gru` at row (b, t): its three `dot_general`s contract
  the last axis of a [32, 512, ·] array with the first of a weight matrix, which at (b, t, j) is the sum over `k` of
  row (b, t) at `k` times the matrix at (k, j); each bias is broadcast over (b, t); `jnp.split` takes the column groups
  0–1023, 1024–2047, 2048–3071; and the sigmoid, which the reference spells as negate, exponential, add one, divide
  into one, is the logistic function on every extended real.
-/
import proofs.«164076_j87677462381238_1_alg».proof.Proof.Gen.ReferenceIdeal.Read
import proofs.«164076_j87677462381238_1_alg».proof.Proof.GruSpec
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx Cert.Gru

variable (x0 : (⟨S32x512x1024, .f32⟩ : BufTy).Contents (Elt Ideal)) (x1 : (⟨S1024x1024, .f32⟩ : BufTy).Contents (Elt Ideal))
  (x2 : (⟨S1024, .f32⟩ : BufTy).Contents (Elt Ideal)) (x3 x4 : (⟨S1024x3072, .f32⟩ : BufTy).Contents (Elt Ideal))
  (x5 : (⟨S2x3072, .f32⟩ : BufTy).Contents (Elt Ideal))

/-- Row (b, t) of the [32, 512, 1024] input. -/
abbrev inRow (X : S32x512x1024.Idx → EReal) (b : Fin 32) (t : Fin 512) : Fin 1024 → EReal := fun k => X (ix3 b t k)
/-- A [1024, n] matrix as a function of its two coordinates. -/
abbrev matOf {n : Nat} (w : (⟨2, ![1024, n]⟩ : Shape).Idx → EReal) : Fin 1024 → Fin n → EReal := fun k j => w (ix2 k j)

/-! ## The printed operand indices, as coordinates -/

theorem lidx0 (i : S32x512x1024.Idx) (k : Fin 1024) : lidx_main_v0 i k = ix3 (i 0) (i 1) k :=
  funext fun a => Fin.ext (by match a with | ⟨0, _⟩ => rfl | ⟨1, _⟩ => rfl | ⟨2, _⟩ => rfl)
theorem ridx0 (i : S32x512x1024.Idx) (k : Fin 1024) : ridx_main_v0 i k = ix2 k (i 2) :=
  funext fun a => Fin.ext (by match a with | ⟨0, _⟩ => rfl | ⟨1, _⟩ => rfl)
theorem bidx (i : S32x512x1024.Idx) : idx_main_v1 (idx_main_v2 i) = ix1 (i 2) :=
  funext fun a => Fin.ext (by match a with | ⟨0, _⟩ => rfl)
theorem lidx4 (j : S32x512x3072.Idx) (k : Fin 1024) : lidx_main_v4 j k = ix3 (j 0) (j 1) k :=
  funext fun a => Fin.ext (by match a with | ⟨0, _⟩ => rfl | ⟨1, _⟩ => rfl | ⟨2, _⟩ => rfl)
theorem ridx4 (j : S32x512x3072.Idx) (k : Fin 1024) : ridx_main_v4 j k = ix2 k (j 2) :=
  funext fun a => Fin.ext (by match a with | ⟨0, _⟩ => rfl | ⟨1, _⟩ => rfl)
theorem lidx10 (j : S32x512x3072.Idx) (k : Fin 1024) : lidx_main_v10 j k = ix3 (j 0) (j 1) k :=
  funext fun a => Fin.ext (by match a with | ⟨0, _⟩ => rfl | ⟨1, _⟩ => rfl | ⟨2, _⟩ => rfl)
theorem ridx10 (j : S32x512x3072.Idx) (k : Fin 1024) : ridx_main_v10 j k = ix2 k (j 2) :=
  funext fun a => Fin.ext (by match a with | ⟨0, _⟩ => rfl | ⟨1, _⟩ => rfl)
/-- The first bias row, sliced, flattened and broadcast over (b, t), reads entry (0, j). -/
theorem b0idx (j : S32x512x3072.Idx) : idx_main_v5 (idx_main_v6 (idx_main_v7 (idx_main_v8 j))) = ix2 0 (j 2) :=
  funext fun a => Fin.ext (by
    match a with
    | ⟨0, _⟩ => rfl
    | ⟨1, _⟩ => show (j 2).val % 3072 = (j 2).val; exact Nat.mod_eq_of_lt (j 2).isLt)
/-- The second bias row likewise reads entry (1, j). -/
theorem b1idx (j : S32x512x3072.Idx) : idx_main_v11 (idx_main_v12 (idx_main_v13 (idx_main_v14 j))) = ix2 1 (j 2) :=
  funext fun a => Fin.ext (by
    match a with
    | ⟨0, _⟩ => rfl
    | ⟨1, _⟩ => show (j 2).val % 3072 = (j 2).val; exact Nat.mod_eq_of_lt (j 2).isLt)
theorem zidx (a : Fin 32) (b : Fin 512) (d : Fin 1024) : idx_main_v16 (ix3 a b d) = ix3 a b (colZ d) :=
  funext fun e => Fin.ext (by match e with | ⟨0, _⟩ => rfl | ⟨1, _⟩ => rfl | ⟨2, _⟩ => rfl)
theorem ridx (a : Fin 32) (b : Fin 512) (d : Fin 1024) : idx_main_v17 (ix3 a b d) = ix3 a b (colR d) :=
  funext fun e => Fin.ext (by match e with | ⟨0, _⟩ => rfl | ⟨1, _⟩ => rfl | ⟨2, _⟩ => rfl)
theorem hidx (a : Fin 32) (b : Fin 512) (d : Fin 1024) : idx_main_v18 (ix3 a b d) = ix3 a b (colH d) :=
  funext fun e => Fin.ext (by match e with | ⟨0, _⟩ => rfl | ⟨1, _⟩ => rfl | ⟨2, _⟩ => rfl)
theorem zidx' (a : Fin 32) (b : Fin 512) (d : Fin 1024) : idx_main_v19 (ix3 a b d) = ix3 a b (colZ d) :=
  funext fun e => Fin.ext (by match e with | ⟨0, _⟩ => rfl | ⟨1, _⟩ => rfl | ⟨2, _⟩ => rfl)
theorem ridx' (a : Fin 32) (b : Fin 512) (d : Fin 1024) : idx_main_v20 (ix3 a b d) = ix3 a b (colR d) :=
  funext fun e => Fin.ext (by match e with | ⟨0, _⟩ => rfl | ⟨1, _⟩ => rfl | ⟨2, _⟩ => rfl)
theorem hidx' (a : Fin 32) (b : Fin 512) (d : Fin 1024) : idx_main_v21 (ix3 a b d) = ix3 a b (colH d) :=
  funext fun e => Fin.ext (by match e with | ⟨0, _⟩ => rfl | ⟨1, _⟩ => rfl | ⟨2, _⟩ => rfl)

/-! ## The stages at an index -/

/-- The dense layer at (b, t, d). -/
theorem dense_apply (i : S32x512x1024.Idx) :
    val_main_v3 (F := Ideal) x0 x1 x2 i = predRow (inRow x0 (i 0) (i 1)) (matOf x1) (fun d => x2 (ix1 d)) (i 2) := by
  rw [val_main_v3_apply, val_main_v0_apply, val_main_v2_apply, val_main_v1_apply, bidx]
  simp only [lidx0, ridx0]
  rfl

/-- The input-side pre-activation at (b, t, j). -/
theorem mx_apply (j : S32x512x3072.Idx) :
    val_main_v9 (F := Ideal) x0 x1 x2 x3 x5 j
      = affine (predRow (inRow x0 (j 0) (j 1)) (matOf x1) (fun d => x2 (ix1 d))) (matOf x3) (fun c => x5 (ix2 0 c)) (j 2) := by
  rw [val_main_v9_apply, val_main_v4_apply, val_main_v8_apply, val_main_v7_apply, val_main_v6_apply, val_main_v5_apply, b0idx]
  unfold affine
  refine congrArg₂ (fun s t : EReal => s + t) (Finset.sum_congr rfl fun k _ => ?_) rfl
  exact congrArg₂ (fun s t : EReal => s * t)
    ((congrArg (val_main_v3 (F := Ideal) x0 x1 x2) (lidx4 j k)).trans (dense_apply x0 x1 x2 _)) (congrArg x3 (ridx4 j k))

/-- The recurrent-side pre-activation at (b, t, j). -/
theorem mi_apply (j : S32x512x3072.Idx) :
    val_main_v15 (F := Ideal) x0 x4 x5 j = affine (inRow x0 (j 0) (j 1)) (matOf x4) (fun c => x5 (ix2 1 c)) (j 2) := by
  rw [val_main_v15_apply, val_main_v10_apply, val_main_v14_apply, val_main_v13_apply, val_main_v12_apply, val_main_v11_apply, b1idx]
  simp only [lidx10, ridx10]
  rfl

/-- The update gate: the spelt-out sigmoid of the two update-gate columns' sum. -/
theorem z_apply (i : S32x512x1024.Idx) :
    val_main_v28 (F := Ideal) x0 x1 x2 x3 x4 x5 i = Ideal.logistic (val_main_v22 (F := Ideal) x0 x1 x2 x3 x4 x5 i) := by
  rw [val_main_v28_apply, val_main_v27_apply, val_main_cst_0_apply, val_main_v26_apply, val_main_v25_apply, val_main_cst_apply,
    val_main_v24_apply, val_main_v23_apply]
  exact logistic_spelt _

/-- The reset gate likewise. -/
theorem r_apply (i : S32x512x1024.Idx) :
    val_main_v35 (F := Ideal) x0 x1 x2 x3 x4 x5 i = Ideal.logistic (val_main_v29 (F := Ideal) x0 x1 x2 x3 x4 x5 i) := by
  rw [val_main_v35_apply, val_main_v34_apply, val_main_cst_2_apply, val_main_v33_apply, val_main_v32_apply, val_main_cst_1_apply,
    val_main_v31_apply, val_main_v30_apply]
  exact logistic_spelt _

/-- The new state at (b, t, d). -/
theorem state_apply (a : Fin 32) (b : Fin 512) (d : Fin 1024) :
    val_main_v43 (F := Ideal) x0 x1 x2 x3 x4 x5 (ix3 a b d)
      = stateRow (inRow x0 a b) (matOf x1) (fun d => x2 (ix1 d)) (matOf x3) (matOf x4) (fun c => x5 (ix2 0 c)) (fun c => x5 (ix2 1 c)) d := by
  rw [val_main_v43_apply, val_main_v39_apply, val_main_v42_apply, val_main_v41_apply, val_main_v40_apply, val_main_cst_3_apply,
    val_main_v38_apply, val_main_v37_apply, val_main_v36_apply, z_apply, r_apply, val_main_v22_apply, val_main_v29_apply,
    val_main_v16_apply, val_main_v17_apply, val_main_v18_apply, val_main_v19_apply, val_main_v20_apply, val_main_v21_apply,
    zidx, ridx, hidx, zidx', ridx', hidx', mx_apply, mx_apply, mx_apply, mi_apply, mi_apply, mi_apply]
  rfl

/-! ## The two results -/

/-- The reference's first result is `Gru.pred` of its arguments. -/
theorem pred_eq : val_main_v3 (F := Ideal) x0 x1 x2 = pred x0 x1 x2 :=
  funext fun i => dense_apply x0 x1 x2 i

/-- The reference's second result is `Gru.state` of its arguments. -/
theorem state_eq : val_main_v43 (F := Ideal) x0 x1 x2 x3 x4 x5 = state x0 x1 x2 x3 x4 x5 := by
  funext i
  obtain ⟨a, b, d, rfl⟩ : ∃ (a : Fin 32) (b : Fin 512) (d : Fin 1024), i = ix3 a b d := ⟨i 0, i 1, i 2, eq_ix3 i⟩
  exact state_apply x0 x1 x2 x3 x4 x5 a b d

end Cert.ReferenceIdeal.RefValue

end
-- ==== Proof.lean ====
/-
  A dense layer followed by one GRU step, over the 16384 rows of a [32, 512, 1024] input: the kernel does it in 64
  blocks of 256 rows with the weights cast to a 16-bit float format and the sigmoid as one operation; the reference
  does it in one piece at full precision with the sigmoid spelt out. Over the extended reals the two are the same
  functions of the arguments (`Cert.Gru.pred`, `Cert.Gru.state`): a format change is the identity, a sum over the
  shared coordinate does not depend on how it was blocked, and `1 / (1 + e^(−s))` is the logistic function at every
  extended real. No law that needs finite entries is used, so the precondition is never opened.

  The three frames are the programs' runs with the results dropped; the idealization rewrote nothing, so
  `preserves` is trivial; `algebraic` sets the kernel program's run (Proof/KernelRun.lean) beside the reference's
  (its run read back, and Proof/RefValue.lean) from memories that agree on the arguments.
-/
import proofs.«164076_j87677462381238_1_alg».proof.Defs
import proofs.«164076_j87677462381238_1_alg».proof.Proof.Gen.Kernel
import proofs.«164076_j87677462381238_1_alg».proof.Proof.Gen.Kernel.Skeleton
import proofs.«164076_j87677462381238_1_alg».proof.Proof.Gen.Kernel.Launch
import proofs.«164076_j87677462381238_1_alg».proof.Proof.Gen.Kernel.Points
import proofs.«164076_j87677462381238_1_alg».proof.Proof.Gen.Kernel.Frame
import proofs.«164076_j87677462381238_1_alg».proof.Proof.Gen.KernelIdeal
import proofs.«164076_j87677462381238_1_alg».proof.Proof.Gen.KernelIdeal.Skeleton
import proofs.«164076_j87677462381238_1_alg».proof.Proof.Gen.KernelIdeal.Launch
import proofs.«164076_j87677462381238_1_alg».proof.Proof.Gen.KernelIdeal.Points
import proofs.«164076_j87677462381238_1_alg».proof.Proof.Gen.KernelIdeal.Frame
import proofs.«164076_j87677462381238_1_alg».proof.Proof.Gen.ReferenceIdeal
import proofs.«164076_j87677462381238_1_alg».proof.Proof.Gen.Pre_finite_inputs
import proofs.«164076_j87677462381238_1_alg».proof.Proof.Gen.ReferenceIdeal.Run
import proofs.«164076_j87677462381238_1_alg».proof.Proof.Gen.ReferenceIdeal.Read
import proofs.«164076_j87677462381238_1_alg».proof.Proof.GruSpec
import proofs.«164076_j87677462381238_1_alg».proof.Proof.KernelRun
import proofs.«164076_j87677462381238_1_alg».proof.Proof.RefValue
import Idealize.ShloMosaic.Adequacy
import Idealize.ShloMosaic.Init

noncomputable section

namespace Cert.Proof

open Idealize.ShloMosaic Idealize.SL.Sem

/-- The printed kernel program terminates without a fault and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization is the program's own text read over the extended reals: nothing to state. -/
theorem preserves : Cert.preserves_Kernel_KernelIdeal := trivial

/-- From memories that agree on the six arguments both programs end with the dense layer's output and the new
    state of every row, as the same functions of those arguments. -/
theorem algebraic : Cert.algebraic_KernelIdeal_ReferenceIdeal := by
  intro m ρ m' ρ' _ hagree
  refine ⟨_, _, Cert.KernelIdeal.Run.run m ρ, ?_⟩
  refine (θ_run Cert.ReferenceIdeal.defs _ _).mono (fun _ h c => ⟨?_, ?_, (h c).2.2⟩)
    (Cert.ReferenceIdeal.Value.run (F := Ideal) m' ρ')
  · obtain ⟨h0, h1, h2, -⟩ := hagree c
    rw [(h c).1, Cert.ReferenceIdeal.Read.val_main_v3_eq, Cert.ReferenceIdeal.RefValue.pred_eq, h0, h1, h2]
  · obtain ⟨h0, h1, h2, h3, h4, h5⟩ := hagree c
    rw [(h c).2.1, Cert.ReferenceIdeal.Read.val_main_v43_eq, Cert.ReferenceIdeal.RefValue.state_eq, h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
